-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x4096 : Shape := ⟨2, ![32768, 4096]⟩
abbrev S64x4096 : Shape := ⟨2, ![64, 4096]⟩
abbrev S64 : Shape := ⟨1, ![64]⟩
abbrev S_ : Shape := ⟨0, ![]⟩

class Facts : Prop where
  bcast_S_S32768x4096 : S_.BroadcastsInDim S32768x4096 (![] : Fin 0 → Fin S32768x4096.rank)
  reducesTo_S32768x4096_S_d0_1 : S32768x4096.ReducesTo [0, 1] S_
  h_S_ : 0 < S_.numel
  bcast_S_S64x4096 : S_.BroadcastsInDim S64x4096 (![] : Fin 0 → Fin S64x4096.rank)
  reducesTo_S64x4096_S_d0_1 : S64x4096.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S32768x4096 .f32) (main_arg1 : FVec F S64x4096 .f32) (main_arg2 : FVec F S64 .f32) : IVec S_ 1 :=
  let main_v0 : FVec F S32768x4096 .f32 := Host.absf main_arg0
  let main_cst : FVec F S_ .f32 := constant S_ .f32 0x7F800000#32
  let main_v1 : FVec F S32768x4096 .f32 := broadcastInDim S32768x4096 ![] bcast_S_S32768x4096 main_cst
  let main_v2 : IVec S32768x4096 1 := cmpf .olt main_v0 main_v1
  let main_c : IVec S_ 1 := constantI S_ 1 1#1
  let main_v3 : IVec S_ 1 := (fun x v => Host.reduce IntOp.andi x v reducesTo_S32768x4096_S_d0_1 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S32768x4096 : Shape := ⟨2, ![32768, 4096]⟩
abbrev S64x4096 : Shape := ⟨2, ![64, 4096]⟩
abbrev S64 : Shape := ⟨1, ![64]⟩
abbrev S4096x64 : Shape := ⟨2, ![4096, 64]⟩
abbrev S1x64 : Shape := ⟨2, ![1, 64]⟩
abbrev S32768x64 : Shape := ⟨2, ![32768, 64]⟩
abbrev S256x4096 : Shape := ⟨2, ![256, 4096]⟩
abbrev S1024x64 : Shape := ⟨2, ![1024, 64]⟩
abbrev S256x64 : Shape := ⟨2, ![256, 64]⟩
abbrev S256 : Shape := ⟨1, ![256]⟩
abbrev S256x1 : Shape := ⟨2, ![256, 1]⟩

abbrev nBuf : Space → Nat
  | .hbm => 6
  | .vmem => 12
  | .smem => 0
  | _ => 0

abbrev bufTy : (tb : Table) → Fin (tcTables nBuf tb) → BufTy
  | .hbm, ⟨0, _⟩ => ⟨S32768x4096, .f32⟩
  | .hbm, ⟨1, _⟩ => ⟨S64x4096, .f32⟩
  | .hbm, ⟨2, _⟩ => ⟨S64, .f32⟩
  | .hbm, ⟨3, _⟩ => ⟨S4096x64, .f32⟩
  | .hbm, ⟨4, _⟩ => ⟨S1x64, .f32⟩
  | .hbm, ⟨5, _⟩ => ⟨S32768x64, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S256x4096, .f32⟩
  | .local _ .vmem, ⟨7, _⟩ => ⟨S256x4096, .f32⟩
  | .local _ .vmem, ⟨8, _⟩ => ⟨S4096x64, .f32⟩
  | .local _ .vmem, ⟨9, _⟩ => ⟨S1x64, .f32⟩
  | .local _ .vmem, ⟨10, _⟩ => ⟨S1024x64, .f32⟩
  | .local _ .vmem, ⟨11, _⟩ => ⟨S1024x64, .f32⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4096x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S64x4096_S4096x64_1_0 : S64x4096.Transposes [1, 0] S4096x64
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S256x4096_S256x4096_0_0 : ∀ a, (![0, 0] : Fin 2 → Nat) a + S256x4096.size a ≤ S256x4096.size a
  h_S256x4096 : 0 < S256x4096.numel
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  broadcasts_S1x64_S256x64 : S1x64.Broadcasts S256x64
  reduces_S256x64_S256 : S256x64.Reduces [1] S256
  shapeCasts_S256_S256x1 : S256.ShapeCasts S256x1
  broadcasts_S256x1_S256x64 : S256x1.Broadcasts S256x64
  inb_S1024x64_S256x64_0_0 : ∀ a, (![0, 0] : Fin 2 → Nat) a + S256x64.size a ≤ S1024x64.size a
  h_S256x64 : 0 < S256x64.numel
  inb_S1024x64_S256x64_256_0 : ∀ a, (![256, 0] : Fin 2 → Nat) a + S256x64.size a ≤ S1024x64.size a
  inb_S1024x64_S256x64_512_0 : ∀ a, (![512, 0] : Fin 2 → Nat) a + S256x64.size a ≤ S1024x64.size a
  inb_S1024x64_S256x64_768_0 : ∀ a, (![768, 0] : Fin 2 → Nat) a + S256x64.size a ≤ S1024x64.size a
  dot_S256x4096_S4096x64_S256x64_1_0_0_1_n_n_wf : DotDims.WF S256x4096 S4096x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S32768x4096.size a
  hwx0_0 : ∀ i : grid0.Coords, EltTy.bits .f32 = 32 ∨ (Rect.block (s := S32768x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S32768x4096.size a
  hwx0_1 : ∀ i : grid0.Coords, EltTy.bits .f32 = 32 ∨ (Rect.block (s := S32768x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S32768x4096.size a
  hwx0_2 : ∀ i : grid0.Coords, EltTy.bits .f32 = 32 ∨ (Rect.block (s := S32768x4096) S256x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S32768x4096.size a
  hwx0_3 : ∀ i : grid0.Coords, EltTy.bits .f32 = 32 ∨ (Rect.block (s := S32768x4096) S256x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x64.size a ≤ S4096x64.size a
  hwx0_4 : ∀ i : grid0.Coords, EltTy.bits .f32 = 32 ∨ (Rect.block (s := S4096x64) S4096x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x64.size a ≤ S32768x64.size a
  hwx0_6 : ∀ i : grid0.Coords, EltTy.bits .f32 = 32 ∨ (Rect.block (s := S32768x64) S1024x64.size (cc0_transform_6 i) (hinb0_6 i)).WholeWords (EltTy.packing .f32)

variable [Facts₀]

def dot_S256x4096_S4096x64_S256x64_1_0_0_1_n_n : DotDims S256x4096 S4096x64 S256x64 where
  lhsContracting := [1]
  rhsContracting := [0]
  lhsNonContracting := [0]
  rhsNonContracting := [1]
  lhsBatch := []
  rhsBatch := []
  wf := dot_S256x4096_S4096x64_S256x64_1_0_0_1_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S256x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S4096x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1024x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32768x4096 : Shape := ⟨2, ![32768, 4096]⟩
abbrev S64x4096 : Shape := ⟨2, ![64, 4096]⟩
abbrev S64 : Shape := ⟨1, ![64]⟩
abbrev S4096x64 : Shape := ⟨2, ![4096, 64]⟩
abbrev S32768x64 : Shape := ⟨2, ![32768, 64]⟩
abbrev S1x64 : Shape := ⟨2, ![1, 64]⟩
abbrev S_ : Shape := ⟨0, ![]⟩
abbrev S32768 : Shape := ⟨1, ![32768]⟩
abbrev S32768x1 : Shape := ⟨2, ![32768, 1]⟩

abbrev nBuf : Space → Nat
  | .hbm => 22
  | .vmem => 0
  | .smem => 0
  | _ => 0

abbrev bufTy : (tb : Table) → Fin (tcTables nBuf tb) → BufTy
  | .hbm, ⟨0, _⟩ => ⟨S32768x4096, .f32⟩
  | .hbm, ⟨1, _⟩ => ⟨S64x4096, .f32⟩
  | .hbm, ⟨2, _⟩ => ⟨S64, .f32⟩
  | .hbm, ⟨3, _⟩ => ⟨S4096x64, .f32⟩
  | .hbm, ⟨4, _⟩ => ⟨S32768x64, .f32⟩
  | .hbm, ⟨5, _⟩ => ⟨S1x64, .f32⟩
  | .hbm, ⟨6, _⟩ => ⟨S32768x64, .f32⟩
  | .hbm, ⟨7, _⟩ => ⟨S32768x64, .f32⟩
  | .hbm, ⟨8, _⟩ => ⟨S_, .f32⟩
  | .hbm, ⟨9, _⟩ => ⟨S32768, .f32⟩
  | .hbm, ⟨10, _⟩ => ⟨S_, .f32⟩
  | .hbm, ⟨11, _⟩ => ⟨S32768, .f32⟩
  | .hbm, ⟨12, _⟩ => ⟨S32768, .f32⟩
  | .hbm, ⟨13, _⟩ => ⟨S32768x1, .f32⟩
  | .hbm, ⟨14, _⟩ => ⟨S32768x64, .f32⟩
  | .hbm, ⟨15, _⟩ => ⟨S32768x64, .f32⟩
  | .hbm, ⟨16, _⟩ => ⟨S32768x64, .f32⟩
  | .hbm, ⟨17, _⟩ => ⟨S_, .f32⟩
  | .hbm, ⟨18, _⟩ => ⟨S32768, .f32⟩
  | .hbm, ⟨19, _⟩ => ⟨S32768x1, .f32⟩
  | .hbm, ⟨20, _⟩ => ⟨S32768x64, .f32⟩
  | .hbm, ⟨21, _⟩ => ⟨S32768x64, .f32⟩
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  transposes_S64x4096_S4096x64_1_0 : S64x4096.Transposes [1, 0] S4096x64
  bcast_S64_S1x64_1 : S64.BroadcastsInDim S1x64 (![1] : Fin 1 → Fin S1x64.rank)
  bcast_S1x64_S32768x64_0_1 : S1x64.BroadcastsInDim S32768x64 (![0, 1] : Fin 2 → Fin S32768x64.rank)
  reducesTo_S32768x64_S32768_d1 : S32768x64.ReducesTo [1] S32768
  h_S_ : 0 < S_.numel
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x64_0_1 : S32768x1.BroadcastsInDim S32768x64 (![0, 1] : Fin 2 → Fin S32768x64.rank)
  dot_S32768x4096_S4096x64_S32768x64_1_0_0_1_n_n_wf : DotDims.WF S32768x4096 S4096x64 S32768x64 [1] [0] [0] [1] [] []

variable [Facts₀]

def dot_S32768x4096_S4096x64_S32768x64_1_0_0_1_n_n : DotDims S32768x4096 S4096x64 S32768x64 where
  lhsContracting := [1]
  rhsContracting := [0]
  lhsNonContracting := [0]
  rhsNonContracting := [1]
  lhsBatch := []
  rhsBatch := []
  wf := dot_S32768x4096_S4096x64_S32768x64_1_0_0_1_n_n_wf

class Facts : Prop extends Facts₀ where

variable [Facts]
-- ==== Proof.KernelBody.lean ====
/-
  The router kernel's body at one grid point, as a statement about its seven staging buffers.

  The body is handed four 256 x 4096 blocks of tokens (consecutive quarters of one 1024-token block), the transposed
  weight matrix (4096 x 64), the bias row (1 x 64) and the 1024 x 64 output block. For each quarter q it forms the
  logits  x_q · Wt + bias, subtracts each row's maximum, exponentiates, divides by the row's sum, and stores the
  256 x 64 result into rows [256 q, 256 q + 256) of the output block. It also loads those rows of the output block
  before storing them; nothing is done with the loaded values.

  So after the body the six input buffers hold what they held, and the output buffer holds four pieces, one per
  quarter, each a function of that quarter's tokens, the weights and the bias alone (`outBlock`). The four pieces
  tile the output block, so nothing of what the buffer held before is left (`outCover`).
-/
import proofs.«133879_g90297392431444_cont_sun_c4_184_22_alg».proof.Proof.Gen.Kernel.Launch
import proofs.«133879_g90297392431444_cont_sun_c4_184_22_alg».proof.Proof.Gen.Kernel.Skeleton
import proofs.«133879_g90297392431444_cont_sun_c4_184_22_alg».proof.Proof.Gen.Kernel.Points
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes through -/

/-- A whole 256 x 4096 token block. -/
abbrev rTok : Rect S256x4096 := Rect.unit (s := S256x4096) ![0, 0] S256x4096.size inb_S256x4096_S256x4096_0_0
/-- The whole transposed weight matrix. -/
abbrev rWt : Rect S4096x64 := Rect.unit (s := S4096x64) ![0, 0] S4096x64.size inb_S4096x64_S4096x64_0_0
/-- The whole bias row. -/
abbrev rBias : Rect S1x64 := Rect.unit (s := S1x64) ![0, 0] S1x64.size inb_S1x64_S1x64_0_0
/-- Rows [0, 256), [256, 512), [512, 768), [768, 1024) of the output block. -/
abbrev rOut0 : Rect S1024x64 := Rect.unit (s := S1024x64) ![0, 0] S256x64.size inb_S1024x64_S256x64_0_0
abbrev rOut1 : Rect S1024x64 := Rect.unit (s := S1024x64) ![256, 0] S256x64.size inb_S1024x64_S256x64_256_0
abbrev rOut2 : Rect S1024x64 := Rect.unit (s := S1024x64) ![512, 0] S256x64.size inb_S1024x64_S256x64_512_0
abbrev rOut3 : Rect S1024x64 := Rect.unit (s := S1024x64) ![768, 0] S256x64.size inb_S1024x64_S256x64_768_0

/-! ## What the body leaves in the output block -/

/-- The output block after the body, from the four token quarters `x0 … x3`, the transposed weights `wt` and the
    bias row `bias`: its four stores as pieces, the last store first. -/
def outBlock (x0 x1 x2 x3 : Vec F S256x4096 .f32) (wt : Vec F S4096x64 .f32) (bias : Vec F S1x64 .f32) : Vec F S1024x64 .f32 :=
  View.canon [⟨rOut3, k0_pay2 (k0_pay3 (View.ld bias rBias)) (View.ld x3 rTok) (View.ld wt rWt)⟩,
    ⟨rOut2, k0_pay1 (k0_pay3 (View.ld bias rBias)) (View.ld x2 rTok) (View.ld wt rWt)⟩,
    ⟨rOut1, k0_pay5 (View.ld bias rBias) (View.ld x1 rTok) (View.ld wt rWt)⟩,
    ⟨rOut0, k0_pay4 (View.ld bias rBias) (View.ld x0 rTok) (View.ld wt rWt)⟩]

/-- The four row bands tile the 1024 x 64 block in bands of 256 rows, so every index lies in one of them. -/
theorem outCover (p3 : rOut3.shape.Idx → Elt F .f32) (p2 : rOut2.shape.Idx → Elt F .f32) (p1 : rOut1.shape.Idx → Elt F .f32)
    (p0 : rOut0.shape.Idx → Elt F .f32) (y : S1024x64.Idx) :
    ∃ pc ∈ ([⟨rOut3, p3⟩, ⟨rOut2, p2⟩, ⟨rOut1, p1⟩, ⟨rOut0, p0⟩] : List (View.Piece (Elt F) S1024x64 .f32)), y ∈ pc.1.set :=
  View.cover_of_tiled [⟨rOut3, p3⟩, ⟨rOut2, p2⟩, ⟨rOut1, p1⟩, ⟨rOut0, p0⟩] S256x64.size (by rfl) y

/-! ## The body's triple -/

set_option maxHeartbeats 4000000 in
/-- The body on whole staging memrefs, the six inputs' at read contents `x0 … x3`, `wt`, `bias` and the output's at
    anything, runs to the continuation holding the inputs' as they were and the output's at `outBlock` of them. -/
theorem sound_kernel (c : Dev nD) (E : Set ℕ) (i : grid0.Coords)
    (arg1 : Memref sig .tc .vmem S256x4096 .f32) (harg1 : arg1.IsWhole) (arg2 : Memref sig .tc .vmem S256x4096 .f32) (harg2 : arg2.IsWhole)
    (arg3 : Memref sig .tc .vmem S256x4096 .f32) (harg3 : arg3.IsWhole) (arg4 : Memref sig .tc .vmem S256x4096 .f32) (harg4 : arg4.IsWhole)
    (arg5 : Memref sig .tc .vmem S4096x64 .f32) (harg5 : arg5.IsWhole) (arg6 : Memref sig .tc .vmem S1x64 .f32) (harg6 : arg6.IsWhole)
    (arg7 : Memref sig .tc .vmem S1024x64 .f32) (harg7 : arg7.IsWhole)
    (x0 x1 x2 x3 : Vec F S256x4096 .f32) (wt : Vec F S4096x64 .f32) (bias : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare wt ∗ owns (c : Thread nD τ) arg6 fullShare bias
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare wt ∗ owns (c : Thread nD τ) arg6 fullShare bias
            ∗ owns (c : Thread nD τ) arg7 fullShare (outBlock x0 x1 x2 x3 wt bias)) -∗ K ⟨⟩))
      ⊢ wp frame (wpE (defs₀ (F := F)) Variants.none c none) E
          (cc0__router_block i arg1 harg1 arg2 harg2 arg3 harg3 arg4 harg4 arg5 harg5 arg6 harg6 arg7 harg7) K := by
  simp only [cc0__router_block_eq_skeleton]; unfold cc0__router_block_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (outCover _ _ _ _)

end Cert.Kernel.Hand

end
-- ==== Proof.LibSharedFrame.lean ====
/-
  The frame run of a one-region TensorCore program whose pipeline hands ONE array to SEVERAL input windows.

  For a pipeline whose windows stand on pairwise distinct arrays every array is held at the full share and the run
  is the library's frame run. When several input windows read one array, the array's full share has to be dealt
  among those windows; how it is dealt is the caller's statement `hsplit`: the distinct buffers behind the windows'
  arrays, each whole at the full share at the region-entry contents, yield the proof data's arrays at entry, every
  window at the share the proof data names for it. Everything else is as for distinct arrays: the kernel has no
  semaphore of its own and owes nothing, its invariant is the core's scoped buffers that are no staging buffer, at
  some contents, at every point; every unscoped buffer that is no window's array bypasses the region and is read
  back at the end as the region found it.

  The conclusion is the library's frame post: every window's array ends at what the proof data compute for it (an
  input's entry contents; an output's entry contents overwritten block by block by what the body left), and every
  other unscoped buffer ends at its region-entry contents.
-/
import Idealize.ShloMosaic.Lib.Pipeline.Frame

noncomputable section

namespace Idealize.ShloMosaic.Pipeline.SharedFrame

open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic.Rounds
open Idealize.ShloMosaic.Pipeline
open TcCoe

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀

/-- The frame run when windows may share arrays: from the body obligation, the layout facts other than the arrays'
    distinctness, the program's shape up to the region (`hmain`, with the buffers' contents there `V`) and the deal of
    the arrays' full shares among the windows (`hsplit`), every weakly fair execution of @main terminates, faulting
    nowhere, in a state satisfying the frame post. -/
theorem θ_run_frame_shared
    (hinj : Function.Injective (cellOf (nD := nD) (τ := τ) cfgs)) (hw : WinFacts₀ (cfg).spec)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (hne : ∀ w : Fin (cfg).W, 0 < ((cfg).spec w).block.numel)
    (harr : ∀ w, ((cfg).spec w).arr.IsWhole) (hstage : ∀ w s, (((cfg).spec w).stage s).IsWhole)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfg).spec c (V c) : sProp 𝕄) ⊢ (dats p c).arrays ((dats p c).arrAt · 0))
    (hΦ : ∀ c t, (dats p c).Φ t = scopedRest (cfg).spec c) :
    θ_run 𝔻 (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj)) (hu₀ := .rfl)
    (V := V) (hmain := hmain) (hsplit := hsplit)
    (X := fun _ => iprop(emp)) (Y := fun _ => iprop(emp))
    (Z := fun c => unscopedRest (Ix := Unit) (Name := ℕ) (U := UR sig nD τ) (Lvl := ℕ) (cfg).spec c (V c))
    (hX := fun c => by
      iintro H
      isplitr
      · iempintro
      · iexact H)
    (hin := fun c => by
      rw [hΦ]
      iintro ⟨-, H⟩
      iexact H)
    (hout := fun c => by
      rw [hΦ]
      iintro H
      isplitr
      · iempintro
      · iexact H)
    (QY := fun c s => ∀ b ∈ restRefs sig (cfg).spec, s.mem ((c.tc : Thread nD τ).loc b) = V c b)
    (hY := fun c s' => by
      iintro ⟨-, HU, HSI⟩
      unfold unscopedRest
      imodintro
      iapply (pointsTo_read_all (restRefs sig (cfg).spec) (fun b => (c.tc : Thread nD τ).loc b) (V c) s')
      isplitl [HU] <;> iassumption)
    (hQ := fun s h c => ⟨(h c).1, (h c).2⟩)

end Idealize.ShloMosaic.Pipeline.SharedFrame

end
-- ==== Proof.KernelFrame.lean ====
/-
  The frame of the router program: it runs to the end, faults nowhere, and leaves its three argument arrays as they
  were.

  @main transposes the weights, reshapes the bias into a row, and launches one pipelined region over 32 grid points.
  The region has seven windows. Windows 0 to 3 all stand on the token array: at point t window q reads the 256-row
  block number 4 t + q, so the four of them together read the 1024 tokens of output block t. Window 4 is the whole
  transposed weight matrix and window 5 the whole bias row, both fetched once. Window 6 is the output: block t of the
  1024-row blocks of the result, written back at every point.

  Because four input windows read one array, that array's full share is dealt among them in quarters (the full share
  halved, each half halved again); the other three arrays are held at the full share. Input windows only read, so the
  token array, and with it the weights and the bias (which no window stages), end as the region found them, and the
  host operations before the region write none of the three arguments.

  What the body leaves in each window's staging buffer at a point: an input's block, in place; the output's four row
  bands, each the softmax of one token quarter's logits (the body's own statement, `outBlock`).
-/
import proofs.«133879_g90297392431444_cont_sun_c4_184_22_alg».proof.Proof.KernelBody
import proofs.«133879_g90297392431444_cont_sun_c4_184_22_alg».proof.Proof.LibSharedFrame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the transpose and the reshape. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the two host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Neither host operation writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the point fetched it or not
    (an unfetched window's block index has not moved): for any proof data whose array is the region-entry one and
    whose body leaves the block in place. One statement per input window. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The arrays as the region finds them; after the body each input's buffer at its block and the output's at
    `outBlock` of the six input blocks; the invariant the core's scratch (there is none) at every point; nothing owed;
    the token array's full share dealt in quarters to windows 0 to 3, every other array at the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlock (iblk m c 0 t) (iblk m c 1 t) (iblk m c 2 t) (iblk m c 3 t) (iblk m c 4 t) (iblk m c 5 t)
  Φ _ := Pipeline.scopedRest (Ix := Unit) (Name := ℕ) (U := UR sig nD τ) (Lvl := ℕ) (Val := Elt F) spec0 c
  q w := match w with
    | ⟨0, _⟩ => fullShare.left.left
    | ⟨1, _⟩ => fullShare.left.right
    | ⟨2, _⟩ => fullShare.right.left
    | ⟨3, _⟩ => fullShare.right.right
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t
    = outBlock (iblk m c 0 t) (iblk m c 1 t) (iblk m c 2 t) (iblk m c 3 t) (iblk m c 4 t) (iblk m c 5 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d

/-! ## The body obligation -/

/-- What the body is called with at point `t`: the invariant, what the core owes, and the seven current buffers, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The token array's full share dealt among the four windows on it -/

/-- The distinct buffers behind the seven windows' arrays: the tokens, the transposed weights, the bias row, the result. -/
theorem arrImage : (Finset.univ.image (Pipeline.arrRef spec0) : Finset (Ref sig .tc))
    = ([main_arg0, main_v0, main_v1, main_v2] : List (Ref sig .tc)).toFinset := by decide

/-- A window's array, a whole buffer, held at share `q` at its entry contents. -/
theorem arr_pt (c : Dev nD) (w : Fin cfg0.W) (q : PosShare TreeShare) :
    (((cfg0.win w).arr.view.loc (c : Thread nD τ)) ↦[(cfg0.win w).arr.view.set]{q} ((dats m 0 c).arrAt w 0) : sProp 𝕄)
      = (((c : Thread nD τ).loc (Pipeline.arrRef spec0 w)) ↦{q} V m c (Pipeline.arrRef spec0 w)) := by
  rw [(arr_whole0 w).set_eq_univ]; rfl

/-- The distinct buffers behind the windows' arrays, each whole at the full share, one by one. -/
theorem arrBufs_eq (c : Dev nD) :
    (Pipeline.arrBufs (Ix := Unit) (Name := ℕ) (U := UR sig nD τ) (Lvl := ℕ) spec0 c (V m c) : sProp 𝕄)
      = iprop((((c : Thread nD τ).loc main_arg0) ↦{fullShare} V m c main_arg0) ∗ (((c : Thread nD τ).loc main_v0) ↦{fullShare} V m c main_v0)
          ∗ (((c : Thread nD τ).loc main_v1) ↦{fullShare} V m c main_v1) ∗ (((c : Thread nD τ).loc main_v2) ↦{fullShare} V m c main_v2)) :=
  bigSep_eq_bigSepL_of_eq [main_arg0, main_v0, main_v1, main_v2] arrImage (by decide) _

/-- A buffer held at the full share is held four times at a quarter: the full share halved, each half halved again. -/
theorem quarter (ℓ : Loc nD τ sig) (f : Buf (Elt F) ℓ) :
    (ℓ ↦{fullShare} f : sProp 𝕄) ⊢ iprop(((ℓ ↦{fullShare.left.left} f) ∗ (ℓ ↦{fullShare.left.right} f))
      ∗ ((ℓ ↦{fullShare.right.left} f) ∗ (ℓ ↦{fullShare.right.right} f))) :=
  (pointsTo_share (PosShare.mem_left_op_right fullShare)).1.trans
    (BIClass.sep_mono (pointsTo_share (PosShare.mem_left_op_right fullShare.left)).1
      (pointsTo_share (PosShare.mem_left_op_right fullShare.right)).1)

/-- The four buffers whole at the full share make the proof data's arrays at entry: the token array's share dealt in
    quarters to windows 0 to 3; the other three as they are. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Pipeline.Dat.arrays
  rw [bigSep_W0]
  rw [arr_pt m c 0, arr_pt m c 1, arr_pt m c 2, arr_pt m c 3, arr_pt m c 4, arr_pt m c 5, arr_pt m c 6]
  rw [show (dats m 0 c).share 0 = fullShare.left.left from rfl, show (dats m 0 c).share 1 = fullShare.left.right from rfl,
    show (dats m 0 c).share 2 = fullShare.right.left from rfl, show (dats m 0 c).share 3 = fullShare.right.right from rfl,
    show (dats m 0 c).share 4 = fullShare from rfl, show (dats m 0 c).share 5 = fullShare from rfl,
    show (dats m 0 c).share 6 = fullShare from rfl]
  refine (BIClass.sep_mono (quarter ((c : Thread nD τ).loc main_arg0) (V m c main_arg0)) .rfl).trans ?_
  iintro ⟨⟨⟨Hll, Hlr⟩, Hrl, Hrr⟩, Hw, Hb, Ho⟩
  isplitl [Hll]; · iexact Hll
  isplitl [Hlr]; · iexact Hlr
  isplitl [Hrl]; · iexact Hrl
  isplitl [Hrr]; · iexact Hrr
  isplitl [Hw]; · iexact Hw
  isplitl [Hb]; · iexact Hb
  iexact Ho

/-! ## The run and the frame -/

set_option backward.isDefEq.respectTransparency.types false in
/-- From any memory with zero counters every weakly fair execution of @main terminates, faulting nowhere, with every
    window's array at what the proof data compute and every other unscoped buffer as the region found it. -/
theorem run_main : θ_run defs (onTc (τ := τ) (main (F := F))) (s₀ m ρ) (Pipeline.FramePost cfgs (dats m) 0 (V m)) :=
  Pipeline.SharedFrame.θ_run_frame_shared cfgs (dats m) (0 : Fin 1) defs₀ Variants.none cellOf_inj winFacts₀0 m ρ main
    (hbody := fun c => (body_obligation m c).loose) (hne := block_pos0) (harr := arr_whole0) (hstage := stage_whole0)
    (howed := fun _ _ => rfl) (V := V m) (hmain := hmain m Variants.none) (hsplit := hsplit m) (hΦ := fun _ _ => rfl)

/-- The frame: the program runs and its three argument arrays end unchanged. The tokens are window 0's array, an
    input's, which ends at its entry contents; the weights and the bias are staged by no window and end as the region
    found them; and the region found all three as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats m 0 c).arrAt_in 0 rfl _).trans ((A_eq m c 0).trans (V_main_arg0 m c))),
     ((h c).2 main_arg1 (Pipeline.mem_restRefs_of main_arg1 (by decide) (by decide))).trans (V_main_arg1 m c),
     ((h c).2 main_arg2 (Pipeline.mem_restRefs_of main_arg2 (by decide) (by decide))).trans (V_main_arg2 m c)⟩) (run_main m ρ)

end Cert.Kernel.Hand

end
-- ==== Proof.KernelIdealBody.lean ====
/-
  The router kernel's body at one grid point, as a statement about its seven staging buffers.

  The body is handed four 256 x 4096 blocks of tokens (consecutive quarters of one 1024-token block), the transposed
  weight matrix (4096 x 64), the bias row (1 x 64) and the 1024 x 64 output block. For each quarter q it forms the
  logits  x_q · Wt + bias, subtracts each row's maximum, exponentiates, divides by the row's sum, and stores the
  256 x 64 result into rows [256 q, 256 q + 256) of the output block. It also loads those rows of the output block
  before storing them; nothing is done with the loaded values.

  So after the body the six input buffers hold what they held, and the output buffer holds four pieces, one per
  quarter, each a function of that quarter's tokens, the weights and the bias alone (`outBlock`). The four pieces
  tile the output block, so nothing of what the buffer held before is left (`outCover`).
-/
import proofs.«133879_g90297392431444_cont_sun_c4_184_22_alg».proof.Proof.Gen.KernelIdeal.Launch
import proofs.«133879_g90297392431444_cont_sun_c4_184_22_alg».proof.Proof.Gen.KernelIdeal.Skeleton
import proofs.«133879_g90297392431444_cont_sun_c4_184_22_alg».proof.Proof.Gen.KernelIdeal.Points
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes through -/

/-- A whole 256 x 4096 token block. -/
abbrev rTok : Rect S256x4096 := Rect.unit (s := S256x4096) ![0, 0] S256x4096.size inb_S256x4096_S256x4096_0_0
/-- The whole transposed weight matrix. -/
abbrev rWt : Rect S4096x64 := Rect.unit (s := S4096x64) ![0, 0] S4096x64.size inb_S4096x64_S4096x64_0_0
/-- The whole bias row. -/
abbrev rBias : Rect S1x64 := Rect.unit (s := S1x64) ![0, 0] S1x64.size inb_S1x64_S1x64_0_0
/-- Rows [0, 256), [256, 512), [512, 768), [768, 1024) of the output block. -/
abbrev rOut0 : Rect S1024x64 := Rect.unit (s := S1024x64) ![0, 0] S256x64.size inb_S1024x64_S256x64_0_0
abbrev rOut1 : Rect S1024x64 := Rect.unit (s := S1024x64) ![256, 0] S256x64.size inb_S1024x64_S256x64_256_0
abbrev rOut2 : Rect S1024x64 := Rect.unit (s := S1024x64) ![512, 0] S256x64.size inb_S1024x64_S256x64_512_0
abbrev rOut3 : Rect S1024x64 := Rect.unit (s := S1024x64) ![768, 0] S256x64.size inb_S1024x64_S256x64_768_0

/-! ## What the body leaves in the output block -/

/-- The output block after the body, from the four token quarters `x0 … x3`, the transposed weights `wt` and the
    bias row `bias`: its four stores as pieces, the last store first. -/
def outBlock (x0 x1 x2 x3 : Vec F S256x4096 .f32) (wt : Vec F S4096x64 .f32) (bias : Vec F S1x64 .f32) : Vec F S1024x64 .f32 :=
  View.canon [⟨rOut3, k0_pay2 (k0_pay3 (View.ld bias rBias)) (View.ld x3 rTok) (View.ld wt rWt)⟩,
    ⟨rOut2, k0_pay1 (k0_pay3 (View.ld bias rBias)) (View.ld x2 rTok) (View.ld wt rWt)⟩,
    ⟨rOut1, k0_pay5 (View.ld bias rBias) (View.ld x1 rTok) (View.ld wt rWt)⟩,
    ⟨rOut0, k0_pay4 (View.ld bias rBias) (View.ld x0 rTok) (View.ld wt rWt)⟩]

/-- The four row bands tile the 1024 x 64 block in bands of 256 rows, so every index lies in one of them. -/
theorem outCover (p3 : rOut3.shape.Idx → Elt F .f32) (p2 : rOut2.shape.Idx → Elt F .f32) (p1 : rOut1.shape.Idx → Elt F .f32)
    (p0 : rOut0.shape.Idx → Elt F .f32) (y : S1024x64.Idx) :
    ∃ pc ∈ ([⟨rOut3, p3⟩, ⟨rOut2, p2⟩, ⟨rOut1, p1⟩, ⟨rOut0, p0⟩] : List (View.Piece (Elt F) S1024x64 .f32)), y ∈ pc.1.set :=
  View.cover_of_tiled [⟨rOut3, p3⟩, ⟨rOut2, p2⟩, ⟨rOut1, p1⟩, ⟨rOut0, p0⟩] S256x64.size (by rfl) y

/-! ## The body's triple -/

set_option maxHeartbeats 4000000 in
/-- The body on whole staging memrefs, the six inputs' at read contents `x0 … x3`, `wt`, `bias` and the output's at
    anything, runs to the continuation holding the inputs' as they were and the output's at `outBlock` of them. -/
theorem sound_kernel (c : Dev nD) (E : Set ℕ) (i : grid0.Coords)
    (arg1 : Memref sig .tc .vmem S256x4096 .f32) (harg1 : arg1.IsWhole) (arg2 : Memref sig .tc .vmem S256x4096 .f32) (harg2 : arg2.IsWhole)
    (arg3 : Memref sig .tc .vmem S256x4096 .f32) (harg3 : arg3.IsWhole) (arg4 : Memref sig .tc .vmem S256x4096 .f32) (harg4 : arg4.IsWhole)
    (arg5 : Memref sig .tc .vmem S4096x64 .f32) (harg5 : arg5.IsWhole) (arg6 : Memref sig .tc .vmem S1x64 .f32) (harg6 : arg6.IsWhole)
    (arg7 : Memref sig .tc .vmem S1024x64 .f32) (harg7 : arg7.IsWhole)
    (x0 x1 x2 x3 : Vec F S256x4096 .f32) (wt : Vec F S4096x64 .f32) (bias : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare wt ∗ owns (c : Thread nD τ) arg6 fullShare bias
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare wt ∗ owns (c : Thread nD τ) arg6 fullShare bias
            ∗ owns (c : Thread nD τ) arg7 fullShare (outBlock x0 x1 x2 x3 wt bias)) -∗ K ⟨⟩))
      ⊢ wp frame (wpE (defs₀ (F := F)) Variants.none c none) E
          (cc0__router_block i arg1 harg1 arg2 harg2 arg3 harg3 arg4 harg4 arg5 harg5 arg6 harg6 arg7 harg7) K := by
  simp only [cc0__router_block_eq_skeleton]; unfold cc0__router_block_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (outCover _ _ _ _)

end Cert.KernelIdeal.Hand

end
-- ==== Proof.KernelIdealFrame.lean ====
/-
  The frame of the router program: it runs to the end, faults nowhere, and leaves its three argument arrays as they
  were.

  @main transposes the weights, reshapes the bias into a row, and launches one pipelined region over 32 grid points.
  The region has seven windows. Windows 0 to 3 all stand on the token array: at point t window q reads the 256-row
  block number 4 t + q, so the four of them together read the 1024 tokens of output block t. Window 4 is the whole
  transposed weight matrix and window 5 the whole bias row, both fetched once. Window 6 is the output: block t of the
  1024-row blocks of the result, written back at every point.

  Because four input windows read one array, that array's full share is dealt among them in quarters (the full share
  halved, each half halved again); the other three arrays are held at the full share. Input windows only read, so the
  token array, and with it the weights and the bias (which no window stages), end as the region found them, and the
  host operations before the region write none of the three arguments.

  What the body leaves in each window's staging buffer at a point: an input's block, in place; the output's four row
  bands, each the softmax of one token quarter's logits (the body's own statement, `outBlock`).
-/
import proofs.«133879_g90297392431444_cont_sun_c4_184_22_alg».proof.Proof.KernelIdealBody
import proofs.«133879_g90297392431444_cont_sun_c4_184_22_alg».proof.Proof.LibSharedFrame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the transpose and the reshape. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the two host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Neither host operation writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the point fetched it or not
    (an unfetched window's block index has not moved): for any proof data whose array is the region-entry one and
    whose body leaves the block in place. One statement per input window. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The arrays as the region finds them; after the body each input's buffer at its block and the output's at
    `outBlock` of the six input blocks; the invariant the core's scratch (there is none) at every point; nothing owed;
    the token array's full share dealt in quarters to windows 0 to 3, every other array at the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlock (iblk m c 0 t) (iblk m c 1 t) (iblk m c 2 t) (iblk m c 3 t) (iblk m c 4 t) (iblk m c 5 t)
  Φ _ := Pipeline.scopedRest (Ix := Unit) (Name := ℕ) (U := UR sig nD τ) (Lvl := ℕ) (Val := Elt F) spec0 c
  q w := match w with
    | ⟨0, _⟩ => fullShare.left.left
    | ⟨1, _⟩ => fullShare.left.right
    | ⟨2, _⟩ => fullShare.right.left
    | ⟨3, _⟩ => fullShare.right.right
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t
    = outBlock (iblk m c 0 t) (iblk m c 1 t) (iblk m c 2 t) (iblk m c 3 t) (iblk m c 4 t) (iblk m c 5 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d

/-! ## The body obligation -/

/-- What the body is called with at point `t`: the invariant, what the core owes, and the seven current buffers, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The token array's full share dealt among the four windows on it -/

/-- The distinct buffers behind the seven windows' arrays: the tokens, the transposed weights, the bias row, the result. -/
theorem arrImage : (Finset.univ.image (Pipeline.arrRef spec0) : Finset (Ref sig .tc))
    = ([main_arg0, main_v0, main_v1, main_v2] : List (Ref sig .tc)).toFinset := by decide

/-- A window's array, a whole buffer, held at share `q` at its entry contents. -/
theorem arr_pt (c : Dev nD) (w : Fin cfg0.W) (q : PosShare TreeShare) :
    (((cfg0.win w).arr.view.loc (c : Thread nD τ)) ↦[(cfg0.win w).arr.view.set]{q} ((dats m 0 c).arrAt w 0) : sProp 𝕄)
      = (((c : Thread nD τ).loc (Pipeline.arrRef spec0 w)) ↦{q} V m c (Pipeline.arrRef spec0 w)) := by
  rw [(arr_whole0 w).set_eq_univ]; rfl

/-- The distinct buffers behind the windows' arrays, each whole at the full share, one by one. -/
theorem arrBufs_eq (c : Dev nD) :
    (Pipeline.arrBufs (Ix := Unit) (Name := ℕ) (U := UR sig nD τ) (Lvl := ℕ) spec0 c (V m c) : sProp 𝕄)
      = iprop((((c : Thread nD τ).loc main_arg0) ↦{fullShare} V m c main_arg0) ∗ (((c : Thread nD τ).loc main_v0) ↦{fullShare} V m c main_v0)
          ∗ (((c : Thread nD τ).loc main_v1) ↦{fullShare} V m c main_v1) ∗ (((c : Thread nD τ).loc main_v2) ↦{fullShare} V m c main_v2)) :=
  bigSep_eq_bigSepL_of_eq [main_arg0, main_v0, main_v1, main_v2] arrImage (by decide) _

/-- A buffer held at the full share is held four times at a quarter: the full share halved, each half halved again. -/
theorem quarter (ℓ : Loc nD τ sig) (f : Buf (Elt F) ℓ) :
    (ℓ ↦{fullShare} f : sProp 𝕄) ⊢ iprop(((ℓ ↦{fullShare.left.left} f) ∗ (ℓ ↦{fullShare.left.right} f))
      ∗ ((ℓ ↦{fullShare.right.left} f) ∗ (ℓ ↦{fullShare.right.right} f))) :=
  (pointsTo_share (PosShare.mem_left_op_right fullShare)).1.trans
    (BIClass.sep_mono (pointsTo_share (PosShare.mem_left_op_right fullShare.left)).1
      (pointsTo_share (PosShare.mem_left_op_right fullShare.right)).1)

/-- The four buffers whole at the full share make the proof data's arrays at entry: the token array's share dealt in
    quarters to windows 0 to 3; the other three as they are. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Pipeline.Dat.arrays
  rw [bigSep_W0]
  rw [arr_pt m c 0, arr_pt m c 1, arr_pt m c 2, arr_pt m c 3, arr_pt m c 4, arr_pt m c 5, arr_pt m c 6]
  rw [show (dats m 0 c).share 0 = fullShare.left.left from rfl, show (dats m 0 c).share 1 = fullShare.left.right from rfl,
    show (dats m 0 c).share 2 = fullShare.right.left from rfl, show (dats m 0 c).share 3 = fullShare.right.right from rfl,
    show (dats m 0 c).share 4 = fullShare from rfl, show (dats m 0 c).share 5 = fullShare from rfl,
    show (dats m 0 c).share 6 = fullShare from rfl]
  refine (BIClass.sep_mono (quarter ((c : Thread nD τ).loc main_arg0) (V m c main_arg0)) .rfl).trans ?_
  iintro ⟨⟨⟨Hll, Hlr⟩, Hrl, Hrr⟩, Hw, Hb, Ho⟩
  isplitl [Hll]; · iexact Hll
  isplitl [Hlr]; · iexact Hlr
  isplitl [Hrl]; · iexact Hrl
  isplitl [Hrr]; · iexact Hrr
  isplitl [Hw]; · iexact Hw
  isplitl [Hb]; · iexact Hb
  iexact Ho

/-! ## The run and the frame -/

set_option backward.isDefEq.respectTransparency.types false in
/-- From any memory with zero counters every weakly fair execution of @main terminates, faulting nowhere, with every
    window's array at what the proof data compute and every other unscoped buffer as the region found it. -/
theorem run_main : θ_run defs (onTc (τ := τ) (main (F := F))) (s₀ m ρ) (Pipeline.FramePost cfgs (dats m) 0 (V m)) :=
  Pipeline.SharedFrame.θ_run_frame_shared cfgs (dats m) (0 : Fin 1) defs₀ Variants.none cellOf_inj winFacts₀0 m ρ main
    (hbody := fun c => (body_obligation m c).loose) (hne := block_pos0) (harr := arr_whole0) (hstage := stage_whole0)
    (howed := fun _ _ => rfl) (V := V m) (hmain := hmain m Variants.none) (hsplit := hsplit m) (hΦ := fun _ _ => rfl)

/-- The frame: the program runs and its three argument arrays end unchanged. The tokens are window 0's array, an
    input's, which ends at its entry contents; the weights and the bias are staged by no window and end as the region
    found them; and the region found all three as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats m 0 c).arrAt_in 0 rfl _).trans ((A_eq m c 0).trans (V_main_arg0 m c))),
     ((h c).2 main_arg1 (Pipeline.mem_restRefs_of main_arg1 (by decide) (by decide))).trans (V_main_arg1 m c),
     ((h c).2 main_arg2 (Pipeline.mem_restRefs_of main_arg2 (by decide) (by decide))).trans (V_main_arg2 m c)⟩) (run_main m ρ)

end Cert.KernelIdeal.Hand

end
-- ==== Proof.RouterSpec.lean ====
/-
  What the router computes, as one function of its three arguments.

  For tokens x (32768 x 4096), weights W (64 x 4096) and bias b (64), row r of the result is the softmax of that
  token's 64 logits,  logit r j = (sum over k of x(r, k) · W(j, k)) + b(j):
      result(r, q) = exp(logit r q - M r) / (sum over j of exp(logit r j - M r)),   M r = the largest logit of row r.
  Everything is read on the extended reals, where exp and the quotient are the model's own functions and the
  maximum is the order's. The maximum is taken as a fold of `max` starting from the value the word 0xFF800000
  denotes (minus infinity); nothing below depends on what that value is, only that both programs start from the same
  word, so it is never evaluated. The one law recorded here: taking the maximum of that starting value with the
  row's maximum changes nothing, because the fold is already above where it started.
-/
import Idealize.ShloMosaic.PureOps.Ideal.Laws
import Idealize.ShloMosaic.Lib.ValueIdx
import Mathlib.Data.Finset.Fold

noncomputable section

namespace Cert.Router

open Idealize.ShloMosaic Idealize.ShloMosaic.ValueIdx

/-- The value a row maximum starts from: what the word 0xFF800000 denotes. -/
abbrev seed : EReal := Ideal.ofBits .f32 0xFF800000#32

/-- The largest of a row's 64 entries (and the starting value). -/
def rowMax (z : Fin 64 → EReal) : EReal := (Finset.univ : Finset (Fin 64)).fold max seed z

/-- The softmax of a row of 64 entries, at entry `q`. -/
def rowSoftmax (z : Fin 64 → EReal) (q : Fin 64) : EReal :=
  Ideal.div (Ideal.exp (z q - rowMax z)) (∑ j : Fin 64, Ideal.exp (z j - rowMax z))

/-- The row maximum is above its own starting value, so a further `max` with that value is the identity. -/
theorem max_seed_rowMax (z : Fin 64 → EReal) : max seed (rowMax z) = rowMax z :=
  max_eq_right ((Finset.le_fold_max _).mpr (Or.inl le_rfl))

/-- Token `r`'s logit for expert `j`. -/
def logit (x : (⟨2, ![32768, 4096]⟩ : Shape).Idx → EReal) (W : (⟨2, ![64, 4096]⟩ : Shape).Idx → EReal)
    (b : (⟨1, ![64]⟩ : Shape).Idx → EReal) (r : Fin 32768) (j : Fin 64) : EReal :=
  (∑ k : Fin 4096, x (ix2 r k) * W (ix2 j k)) + b (ix1 j)

/-- The router's result: row `r` is the softmax of token `r`'s logits. -/
def G (x : (⟨2, ![32768, 4096]⟩ : Shape).Idx → EReal) (W : (⟨2, ![64, 4096]⟩ : Shape).Idx → EReal)
    (b : (⟨1, ![64]⟩ : Shape).Idx → EReal) : (⟨2, ![32768, 64]⟩ : Shape).Idx → EReal :=
  fun i => rowSoftmax (logit x W b ⟨(i 0).val, idx2_lt0 i⟩) ⟨(i 1).val, idx2_lt1 i⟩

theorem G_ix2 (x : (⟨2, ![32768, 4096]⟩ : Shape).Idx → EReal) (W : (⟨2, ![64, 4096]⟩ : Shape).Idx → EReal)
    (b : (⟨1, ![64]⟩ : Shape).Idx → EReal) (r : Fin 32768) (q : Fin 64) :
    G x W b (ix2 r q) = rowSoftmax (logit x W b r) q := rfl

end Cert.Router

end
-- ==== Proof.LibPlainDot.lean ====
/-
  A matrix product of an [R, K] operand by a [K, C] operand, contracted over the one shared axis (the
  dimension numbers lhs_contracting = [1], rhs_contracting = [0], no batch axes), read at an entry (p, q) on the
  extended reals: the plain sum over k of l(p, k) · r(k, q). Stated for ANY dimension-number record of that
  form, so that it serves every such product whatever the record's name and whatever R, K, C are.
-/
import Idealize.ShloMosaic.PureOps.Ideal.Laws
import Idealize.ShloMosaic.Lib.ValueIdx

noncomputable section

namespace Idealize.ShloMosaic.PlainDot

open Idealize.ShloMosaic Idealize.ShloMosaic.ValueIdx

variable {R K C : ℕ}

/-- The dimension numbers of a plain row-by-column product: the left operand's axis 1 is contracted with the right
    operand's axis 0; the left operand's axis 0 and the right operand's axis 1 survive, in that order; no batch axes. -/
structure IsPlain (d : DotDims ⟨2, ![R, K]⟩ ⟨2, ![K, C]⟩ ⟨2, ![R, C]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![R, K]⟩ ⟨2, ![K, C]⟩ ⟨2, ![R, C]⟩}

/-- A coordinate of an index depends on the axis' position only. -/
private theorem coord_congr {s : Shape} (j : s.Idx) (a b : Nat) (ha : a < s.rank) (hb : b < s.rank) (e : a = b) :
    (j ⟨a, ha⟩).val = (j ⟨b, hb⟩).val := by subst e; rfl

/-- The left operand's row is the result's row. -/
theorem lhs_row (h : IsPlain d) (j : (⟨2, ![R, C]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by simp [h.lb, h.ln])

/-- The right operand's column is the result's column. -/
theorem rhs_col (h : IsPlain d) (j : (⟨2, ![R, C]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by simp [h.lb, h.ln, h.rn])

theorem contr_rank (h : IsPlain d) : d.contr.rank = 1 := by
  rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The product read at (p, q): the sum over the contracted axis. -/
theorem sum_apply (h : IsPlain d) {φ₁ φ₂ : FTy} (l : FVec Ideal ⟨2, ![R, K]⟩ φ₁) (r : FVec Ideal ⟨2, ![K, C]⟩ φ₂)
    (p : Fin R) (q : Fin C) :
    (∑ k : d.contr.Idx, l (d.lhsIdx (ix2 p q) k) * r (d.rhsIdx (ix2 p q) k)) = ∑ k : Fin K, l (ix2 p k) * r (ix2 k q) := by
  rw [← Equiv.sum_comp (contrEquiv1 d K (contr_rank h) (contr_size h)).symm]
  refine Finset.sum_congr rfl fun k _ => ?_
  have hk := contrEquiv1_symm_val d K (contr_rank h) (contr_size h) k
  have el : d.lhsIdx (ix2 p q) ((contrEquiv1 d K (contr_rank h) (contr_size h)).symm k) = ix2 p k := funext fun a => Fin.ext (by
    match a with
    | ⟨0, _⟩ => exact lhs_row h _ _
    | ⟨1, _⟩ => exact (d.lhsIdx_val_of_single h.lc _ _).trans hk)
  have er : d.rhsIdx (ix2 p q) ((contrEquiv1 d K (contr_rank h) (contr_size h)).symm k) = ix2 k q := funext fun a => Fin.ext (by
    match a with
    | ⟨0, _⟩ => exact (d.rhsIdx_val_of_single h.rc _ _).trans hk
    | ⟨1, _⟩ => exact rhs_col h _ _)
  rw [el, er]

/-- A kernel's matrix product into a zero accumulator, read at (p, q). -/
theorem matmul_zero_apply (h : IsPlain d) {φ₁ φ₂ : FTy} (prec : Option ContractPrecision)
    (l : FVec Ideal ⟨2, ![R, K]⟩ φ₁) (r : FVec Ideal ⟨2, ![K, C]⟩ φ₂) (p : Fin R) (q : Fin C) :
    FloatOps.matmul d prec l r (constant ⟨2, ![R, C]⟩ .f32 0x00000000#32) (ix2 p q) = ∑ k : Fin K, l (ix2 p k) * r (ix2 k q) := by
  rw [Ideal.matmul_constant_zero_apply]
  exact sum_apply h l r p q

/-- The host's matrix product read at (p, q). -/
theorem dotGeneral_apply (h : IsPlain d) {φ₁ φ₂ : FTy} (prec : Option ContractPrecision) (sched : HostSchedule)
    (l : FVec Ideal ⟨2, ![R, K]⟩ φ₁) (r : FVec Ideal ⟨2, ![K, C]⟩ φ₂) (p : Fin R) (q : Fin C) :
    FloatOps.dotGeneral d prec sched l r (ix2 p q) = ∑ k : Fin K, l (ix2 p k) * r (ix2 k q) := by
  rw [Ideal.dotGeneral_apply]
  exact sum_apply h l r p q

end Idealize.ShloMosaic.PlainDot

end
-- ==== Proof.RouterChunk.lean ====
/-
  One quarter's payload of the router kernel, read at an entry.

  A quarter takes a 256 x 4096 block of tokens x, the 4096 x 64 transposed weights w and the 1 x 64 bias row, and
  computes, for row p and column q,
      exp(L(p, q) - M p) / (sum over j of exp(L(p, j) - M p)),
  where L(p, j) = (sum over k of x(p, k) · w(k, j)) + bias(0, j) and M p is the largest of row p's 64 logits. That
  is the row softmax of the specification applied to row p's logits. The steps: the matrix product into zeros is the
  plain sum over k; the bias row broadcast down the rows reads its column; a row maximum (resp. sum) kept as a column
  and broadcast back across the row reads the row's maximum (resp. sum) at every column.
  The body's four payloads are this one computation spelt four times.
-/
import proofs.«133879_g90297392431444_cont_sun_c4_184_22_alg».proof.Proof.Gen.KernelIdeal.Skeleton
import proofs.«133879_g90297392431444_cont_sun_c4_184_22_alg».proof.Proof.RouterSpec
import proofs.«133879_g90297392431444_cont_sun_c4_184_22_alg».proof.Proof.LibPlainDot
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.ValueIdx Cert.Router

/-- The kernel's matrix product is a plain rows-by-columns product. -/
theorem dotPlain : PlainDot.IsPlain dot_S256x4096_S4096x64_S256x64_1_0_0_1_n_n := ⟨rfl, rfl, rfl, rfl, rfl, rfl⟩

/-- A vector of 256 row values kept as a 256 x 1 column and broadcast across 64 columns reads, at (p, q), row p's value. -/
theorem keepdims_apply {α : Type} (v : S256.Idx → α) (p : Fin 256) (q : Fin 64) :
    broadcastTo S256x64 (shapeCast S256x1 v shapeCasts_S256_S256x1) broadcasts_S256x1_S256x64 (ix2 p q) = v (ix1 p) := by
  refine (broadcastTo_apply _ broadcasts_S256x1_S256x64 (ix2 p q) (ix2 p (0 : Fin 1)) (fun a => match a with
    | ⟨0, _⟩ => by show p.val = if (256 : Nat) = 1 then 0 else p.val; rw [if_neg (by decide)]
    | ⟨1, _⟩ => by show 0 = if (1 : Nat) = 1 then 0 else q.val; rw [if_pos rfl])).trans ?_
  exact shapeCast_apply v shapeCasts_S256_S256x1 (ix2 p (0 : Fin 1)) (ix1 p) (by
    rw [Shape.rowMajor_val_one, Shape.rowMajor_val_two]; show p.val = p.val * 1 + 0; omega)

/-- The bias row broadcast down 256 rows reads, at (p, j), the row's column j. -/
theorem biasRows_apply {α : Type} (brow : S1x64.Idx → α) (p : Fin 256) (j : Fin 64) :
    broadcastTo S256x64 brow broadcasts_S1x64_S256x64 (ix2 p j) = brow (ix2 (0 : Fin 1) j) :=
  broadcastTo_apply brow broadcasts_S1x64_S256x64 (ix2 p j) (ix2 (0 : Fin 1) j) (fun a => match a with
    | ⟨0, _⟩ => by show 0 = if (1 : Nat) = 1 then 0 else p.val; rw [if_pos rfl]
    | ⟨1, _⟩ => by show j.val = if (64 : Nat) = 1 then 0 else j.val; rw [if_neg (by decide)])

/-- Row p's entries of a 256 x 64 array are the array at (p, j): the index with column j inserted is (p, j). -/
theorem lift_row (p : Fin 256) (j : Fin 64) : reduces_S256x64_S256.lift (ix1 p) j = ix2 p j :=
  funext fun a => Fin.ext (by match a with | ⟨0, _⟩ => rfl | ⟨1, _⟩ => rfl)

/-- A row maximum of a 256 x 64 array, read at row p. -/
theorem rowMax_apply (L : FVec Ideal S256x64 .f32) (p : Fin 256) :
    multiReduction .maximumf [1] S256 L 0xFF800000#32 reduces_S256x64_S256 (.inl rfl) rfl (ix1 p) = rowMax (fun j => L (ix2 p j)) := by
  refine (Ideal.multiReduction_maximumf_single L 0xFF800000#32 reduces_S256x64_S256 (.inl rfl) rfl (ix1 p)).trans ?_
  show (Finset.univ : Finset (Fin 64)).fold max seed (fun j => L (reduces_S256x64_S256.lift (ix1 p) j))
    = (Finset.univ : Finset (Fin 64)).fold max seed (fun j => L (ix2 p j))
  exact congrArg (fun f : Fin 64 → EReal => (Finset.univ : Finset (Fin 64)).fold max seed f) (funext fun j => congrArg L (lift_row p j))

/-- A row sum of a 256 x 64 array, read at row p. -/
theorem rowSum_apply (E : FVec Ideal S256x64 .f32) (p : Fin 256) :
    multiReduction .add [1] S256 E 0x00000000#32 reduces_S256x64_S256 (.inl rfl) rfl (ix1 p) = ∑ j : Fin 64, E (ix2 p j) := by
  refine (Ideal.multiReduction_add_single E 0x00000000#32 reduces_S256x64_S256 (.inl rfl) rfl (ix1 p)).trans ?_
  show (∑ j : Fin 64, E (reduces_S256x64_S256.lift (ix1 p) j)) = _
  exact Finset.sum_congr rfl fun j _ => congrArg E (lift_row p j)

/-- The softmax along the rows of a 256 x 64 array of logits, as the body spells it, read at (p, q). -/
def softmaxRows (L : FVec Ideal S256x64 .f32) : FVec Ideal S256x64 .f32 :=
  divf (exp (subf L (broadcastTo S256x64 (shapeCast S256x1 (multiReduction .maximumf [1] S256 L 0xFF800000#32 reduces_S256x64_S256 (.inl rfl) rfl) shapeCasts_S256_S256x1) broadcasts_S256x1_S256x64)))
    (broadcastTo S256x64 (shapeCast S256x1 (multiReduction .add [1] S256
      (exp (subf L (broadcastTo S256x64 (shapeCast S256x1 (multiReduction .maximumf [1] S256 L 0xFF800000#32 reduces_S256x64_S256 (.inl rfl) rfl) shapeCasts_S256_S256x1) broadcasts_S256x1_S256x64)))
      0x00000000#32 reduces_S256x64_S256 (.inl rfl) rfl) shapeCasts_S256_S256x1) broadcasts_S256x1_S256x64)

theorem softmaxRows_apply (L : FVec Ideal S256x64 .f32) (p : Fin 256) (q : Fin 64) :
    softmaxRows L (ix2 p q) = rowSoftmax (fun j => L (ix2 p j)) q := by
  have hE : ∀ j : Fin 64, exp (subf L (broadcastTo S256x64 (shapeCast S256x1 (multiReduction .maximumf [1] S256 L 0xFF800000#32 reduces_S256x64_S256 (.inl rfl) rfl) shapeCasts_S256_S256x1) broadcasts_S256x1_S256x64)) (ix2 p j)
      = Ideal.exp (L (ix2 p j) - rowMax (fun j => L (ix2 p j))) := fun j => by
    show Ideal.exp (L (ix2 p j) - broadcastTo S256x64 (shapeCast S256x1 (multiReduction .maximumf [1] S256 L 0xFF800000#32 reduces_S256x64_S256 (.inl rfl) rfl) shapeCasts_S256_S256x1) broadcasts_S256x1_S256x64 (ix2 p j)) = _
    rw [keepdims_apply, rowMax_apply]
  unfold softmaxRows rowSoftmax
  show Ideal.div (exp (subf L _) (ix2 p q)) (broadcastTo S256x64 (shapeCast S256x1 _ shapeCasts_S256_S256x1) broadcasts_S256x1_S256x64 (ix2 p q)) = _
  rw [keepdims_apply, rowSum_apply, hE q]
  exact congrArg _ (Finset.sum_congr rfl fun j _ => hE j)

/-- The logits of a quarter, as the body spells them, read at (p, j). -/
theorem logits_apply (brow : FVec Ideal S1x64 .f32) (x : FVec Ideal S256x4096 .f32) (w : FVec Ideal S4096x64 .f32) (p : Fin 256) (j : Fin 64) :
    addf (matmul dot_S256x4096_S4096x64_S256x64_1_0_0_1_n_n none x (shapeCast S4096x64 w shapeCasts_S4096x64_S4096x64) (constant S256x64 .f32 0x00000000#32))
        (broadcastTo S256x64 brow broadcasts_S1x64_S256x64) (ix2 p j)
      = (∑ k : Fin 4096, x (ix2 p k) * w (ix2 k j)) + brow (ix2 (0 : Fin 1) j) := by
  show FloatOps.matmul dot_S256x4096_S4096x64_S256x64_1_0_0_1_n_n none x (shapeCast S4096x64 w shapeCasts_S4096x64_S4096x64) (constant S256x64 .f32 0x00000000#32) (ix2 p j)
      + broadcastTo S256x64 brow broadcasts_S1x64_S256x64 (ix2 p j) = _
  rw [shapeCast_self, biasRows_apply]
  exact congrArg (· + _) (PlainDot.matmul_zero_apply dotPlain none x w p j)

/-- ONE QUARTER'S PAYLOAD at (p, q): the row softmax of row p's logits. -/
theorem pay_apply (brow : FVec Ideal S1x64 .f32) (x : FVec Ideal S256x4096 .f32) (w : FVec Ideal S4096x64 .f32) (p : Fin 256) (q : Fin 64) :
    k0_pay1 (F := Ideal) brow x w (ix2 p q)
      = rowSoftmax (fun j => (∑ k : Fin 4096, x (ix2 p k) * w (ix2 k j)) + brow (ix2 (0 : Fin 1) j)) q := by
  have h : k0_pay1 (F := Ideal) brow x w = softmaxRows (addf (matmul dot_S256x4096_S4096x64_S256x64_1_0_0_1_n_n none x (shapeCast S4096x64 w shapeCasts_S4096x64_S4096x64) (constant S256x64 .f32 0x00000000#32))
        (broadcastTo S256x64 brow broadcasts_S1x64_S256x64)) := rfl
  rw [h, softmaxRows_apply]
  exact congrArg (fun z => rowSoftmax z q) (funext fun j => logits_apply brow x w p j)

/-- The four payloads are one computation: each takes the bias row (re-cast to its own shape, which changes nothing),
    its quarter's tokens and the weights. -/
theorem pay3_eq {F : FTy → Type} [FloatOps F] (v0 : Vec F S1x64 .f32) : k0_pay3 v0 = v0 := shapeCast_self v0 _
theorem pay2_eq {F : FTy → Type} [FloatOps F] (v1 : FVec F S1x64 .f32) (x : Vec F S256x4096 .f32) (w : Vec F S4096x64 .f32) :
    k0_pay2 v1 x w = k0_pay1 v1 x w := rfl
theorem pay4_eq {F : FTy → Type} [FloatOps F] (v0 : Vec F S1x64 .f32) (x : Vec F S256x4096 .f32) (w : Vec F S4096x64 .f32) :
    k0_pay4 v0 x w = k0_pay1 (k0_pay3 v0) x w := rfl
theorem pay5_eq {F : FTy → Type} [FloatOps F] (v0 : Vec F S1x64 .f32) (x : Vec F S256x4096 .f32) (w : Vec F S4096x64 .f32) :
    k0_pay5 v0 x w = k0_pay1 (k0_pay3 v0) x w := rfl

end Cert.KernelIdeal.Hand

end
-- ==== Proof.KernelIdealValue.lean ====
/-
  The idealized router kernel's result, as one function of the three arguments.

  At grid point t the pipeline hands the body rows [1024 t + 256 q, 1024 t + 256 q + 256) of the tokens as quarter q
  (q = 0, 1, 2, 3), the whole transposed weight matrix and the whole bias row; the body writes rows
  [1024 t, 1024 t + 1024) of the result. The transposed weights read at (k, j) are W(j, k); the bias row read at
  (0, j) is b(j). So quarter q's payload at (p, col) is the row softmax of token 1024 t + 256 q + p's logits — the
  specification's value at that row — and the four row bands the body leaves are the block t of the specification's
  array. The 32 blocks tile the 32768 rows, so after the run the result array IS the specification's array.
-/
import proofs.«133879_g90297392431444_cont_sun_c4_184_22_alg».proof.Proof.KernelIdealFrame
import proofs.«133879_g90297392431444_cont_sun_c4_184_22_alg».proof.Proof.RouterChunk
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Cert.Router
open Idealize.SL Idealize.SL.Sem
open Idealize.ShloMosaic.Pipeline (Dat Cfg Window)

variable (m : (ℓ : Loc nD τ sig) → Buf (Elt Ideal) ℓ) (ρ : Dev nD → PrngReg)

/-! ## The three arguments as launched, and what the region finds in the two arrays the host wrote -/

abbrev argX (c : Dev nD) : S32768x4096.Idx → EReal := m ((c : Thread nD τ).loc main_arg0)
abbrev argW (c : Dev nD) : S64x4096.Idx → EReal := m ((c : Thread nD τ).loc main_arg1)
abbrev argB (c : Dev nD) : S64.Idx → EReal := m ((c : Thread nD τ).loc main_arg2)

/-- The region finds the transposed weights in `main_v0`. -/
theorem V_main_v0 (c : Dev nD) : (V m c main_v0 : S4096x64.Idx → EReal)
    = transpose S4096x64 [1, 0] (argW m c) transposes_S64x4096_S4096x64_1_0 := by
  dsimp only [V, hostOps0]; after_results; try rfl

/-- and the bias as a 1 x 64 row in `main_v1`. -/
theorem V_main_v1 (c : Dev nD) : (V m c main_v1 : S1x64.Idx → EReal)
    = shapeCast S1x64 (argB m c) shapeCasts_S64_S1x64 := by
  dsimp only [V, hostOps0]; after_results; try rfl

/-- The transposed weights at (k, j) are the weights at (j, k). -/
theorem wt_apply (c : Dev nD) (k : Fin 4096) (j : Fin 64) : (V m c main_v0 : S4096x64.Idx → EReal) (ix2 k j) = argW m c (ix2 j k) := by
  rw [V_main_v0]
  exact transpose_apply [1, 0] (argW m c) transposes_S64x4096_S4096x64_1_0 (ix2 k j) (ix2 j k) (fun b => match b with
    | ⟨0, _⟩ => rfl
    | ⟨1, _⟩ => rfl)

/-- The bias row at (0, j) is the bias at j. -/
theorem brow_apply (c : Dev nD) (j : Fin 64) : (V m c main_v1 : S1x64.Idx → EReal) (ix2 (0 : Fin 1) j) = argB m c (ix1 j) := by
  rw [V_main_v1]
  exact shapeCast_apply (argB m c) shapeCasts_S64_S1x64 (ix2 (0 : Fin 1) j) (ix1 j) (by
    rw [Shape.rowMajor_val_one, Shape.rowMajor_val_two]; show j.val = 0 * 64 + j.val; omega)

/-! ## The index maps, decided over the grid -/

theorem idx_facts : ∀ t : Fin cfg0.N,
    win0_0.index t (0 : Fin 2) = 4 * t.val + 0 ∧ win0_0.index t (1 : Fin 2) = 0
    ∧ win0_1.index t (0 : Fin 2) = 4 * t.val + 1 ∧ win0_1.index t (1 : Fin 2) = 0
    ∧ win0_2.index t (0 : Fin 2) = 4 * t.val + 2 ∧ win0_2.index t (1 : Fin 2) = 0
    ∧ win0_3.index t (0 : Fin 2) = 4 * t.val + 3 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem t_lt (t : Fin cfg0.N) : t.val < 32 := lt_of_lt_of_eq t.isLt N_0

/-- Row y of block t of the 1024-row blocks. -/
def rowOf (t : Fin cfg0.N) (y : Nat) (hy : y < 1024) : Fin 32768 := ⟨1024 * t.val + y, by have := t_lt t; omega⟩

/-! ## Each window's block read at an entry -/

theorem tok0_apply (c : Dev nD) (t : Fin cfg0.N) (p : Fin 256) (k : Fin 4096) :
    iblk m c 0 t (ix2 p k) = argX m c (ix2 (rowOf t (256 * 0 + p.val) (by have := p.isLt; omega)) k) := by
  show V m c main_arg0 (((cfg0.win 0).blk t).view.emb (ix2 p k)) = _
  rw [V_main_arg0]
  obtain ⟨a0, a1, b0, b1, c0, c1, d0, d1, e0, e1, f0, f1, g0, g1⟩ := idx_facts t
  refine congrArg (m ((c : Thread nD τ).loc main_arg0)) (funext fun a => Fin.ext ?_)
  match a with
  | ⟨0, _⟩ => show win0_0.index t (0 : Fin 2) * 256 + 1 * p.val = 1024 * t.val + (256 * 0 + p.val); omega
  | ⟨1, _⟩ => show win0_0.index t (1 : Fin 2) * 4096 + 1 * k.val = k.val; omega
theorem tok1_apply (c : Dev nD) (t : Fin cfg0.N) (p : Fin 256) (k : Fin 4096) :
    iblk m c 1 t (ix2 p k) = argX m c (ix2 (rowOf t (256 * 1 + p.val) (by have := p.isLt; omega)) k) := by
  show V m c main_arg0 (((cfg0.win 1).blk t).view.emb (ix2 p k)) = _
  rw [V_main_arg0]
  obtain ⟨a0, a1, b0, b1, c0, c1, d0, d1, e0, e1, f0, f1, g0, g1⟩ := idx_facts t
  refine congrArg (m ((c : Thread nD τ).loc main_arg0)) (funext fun a => Fin.ext ?_)
  match a with
  | ⟨0, _⟩ => show win0_1.index t (0 : Fin 2) * 256 + 1 * p.val = 1024 * t.val + (256 * 1 + p.val); omega
  | ⟨1, _⟩ => show win0_1.index t (1 : Fin 2) * 4096 + 1 * k.val = k.val; omega
theorem tok2_apply (c : Dev nD) (t : Fin cfg0.N) (p : Fin 256) (k : Fin 4096) :
    iblk m c 2 t (ix2 p k) = argX m c (ix2 (rowOf t (256 * 2 + p.val) (by have := p.isLt; omega)) k) := by
  show V m c main_arg0 (((cfg0.win 2).blk t).view.emb (ix2 p k)) = _
  rw [V_main_arg0]
  obtain ⟨a0, a1, b0, b1, c0, c1, d0, d1, e0, e1, f0, f1, g0, g1⟩ := idx_facts t
  refine congrArg (m ((c : Thread nD τ).loc main_arg0)) (funext fun a => Fin.ext ?_)
  match a with
  | ⟨0, _⟩ => show win0_2.index t (0 : Fin 2) * 256 + 1 * p.val = 1024 * t.val + (256 * 2 + p.val); omega
  | ⟨1, _⟩ => show win0_2.index t (1 : Fin 2) * 4096 + 1 * k.val = k.val; omega
theorem tok3_apply (c : Dev nD) (t : Fin cfg0.N) (p : Fin 256) (k : Fin 4096) :
    iblk m c 3 t (ix2 p k) = argX m c (ix2 (rowOf t (256 * 3 + p.val) (by have := p.isLt; omega)) k) := by
  show V m c main_arg0 (((cfg0.win 3).blk t).view.emb (ix2 p k)) = _
  rw [V_main_arg0]
  obtain ⟨a0, a1, b0, b1, c0, c1, d0, d1, e0, e1, f0, f1, g0, g1⟩ := idx_facts t
  refine congrArg (m ((c : Thread nD τ).loc main_arg0)) (funext fun a => Fin.ext ?_)
  match a with
  | ⟨0, _⟩ => show win0_3.index t (0 : Fin 2) * 256 + 1 * p.val = 1024 * t.val + (256 * 3 + p.val); omega
  | ⟨1, _⟩ => show win0_3.index t (1 : Fin 2) * 4096 + 1 * k.val = k.val; omega

theorem wtBlk_apply (c : Dev nD) (t : Fin cfg0.N) (k : Fin 4096) (j : Fin 64) : iblk m c 4 t (ix2 k j) = argW m c (ix2 j k) := by
  show V m c main_v0 (((cfg0.win 4).blk t).view.emb (ix2 k j)) = _
  obtain ⟨a0, a1, b0, b1, c0, c1, d0, d1, e0, e1, f0, f1, g0, g1⟩ := idx_facts t
  refine (congrArg (V m c main_v0) (funext fun a => Fin.ext ?_)).trans (wt_apply m c k j)
  match a with
  | ⟨0, _⟩ => show win0_4.index t (0 : Fin 2) * 4096 + 1 * k.val = k.val; omega
  | ⟨1, _⟩ => show win0_4.index t (1 : Fin 2) * 64 + 1 * j.val = j.val; omega

theorem biasBlk_apply (c : Dev nD) (t : Fin cfg0.N) (j : Fin 64) : iblk m c 5 t (ix2 (0 : Fin 1) j) = argB m c (ix1 j) := by
  show V m c main_v1 (((cfg0.win 5).blk t).view.emb (ix2 (0 : Fin 1) j)) = _
  obtain ⟨a0, a1, b0, b1, c0, c1, d0, d1, e0, e1, f0, f1, g0, g1⟩ := idx_facts t
  refine (congrArg (V m c main_v1) (funext fun a => Fin.ext ?_)).trans (brow_apply m c j)
  match a with
  | ⟨0, _⟩ => show win0_5.index t (0 : Fin 2) * 1 + 1 * 0 = 0; omega
  | ⟨1, _⟩ => show win0_5.index t (1 : Fin 2) * 64 + 1 * j.val = j.val; omega

/-! ## What the body leaves is block t of the specification's array -/

theorem zeros2 : (![0, 0] : Fin 2 → Nat) = fun _ => 0 := funext fun a => by fin_cases a <;> rfl

/-- A quarter's payload at (p, col), for a token block whose row p is row `R p` of the token array, the weights read
    transposed and the bias read as a row: the specification at (R p, col). -/
theorem quarter_apply (x : S32768x4096.Idx → EReal) (W : S64x4096.Idx → EReal) (b : S64.Idx → EReal)
    (brow : FVec Ideal S1x64 .f32) (X : FVec Ideal S256x4096 .f32) (wt : FVec Ideal S4096x64 .f32) (R : Fin 256 → Fin 32768)
    (hX : ∀ p k, X (ix2 p k) = x (ix2 (R p) k)) (hW : ∀ k j, wt (ix2 k j) = W (ix2 j k))
    (hB : ∀ j, brow (ix2 (0 : Fin 1) j) = b (ix1 j)) (p : Fin 256) (q : Fin 64) :
    k0_pay1 (F := Ideal) brow X wt (ix2 p q) = G x W b (ix2 (R p) q) := by
  rw [pay_apply, G_ix2]
  refine congrArg (fun z => rowSoftmax z q) (funext fun j => ?_)
  unfold logit
  rw [hB j]
  exact congrArg (· + _) (Finset.sum_congr rfl fun k _ => by rw [hX p k, hW k j])

/-- The four row bands the body leaves, for token quarters that are rows `R (256 q + p)` of the token array: at
    (y0, y1) the specification at (R y0, y1). -/
theorem outBlock_apply (x : S32768x4096.Idx → EReal) (W : S64x4096.Idx → EReal) (b : S64.Idx → EReal)
    (x0 x1 x2 x3 : FVec Ideal S256x4096 .f32) (wt : FVec Ideal S4096x64 .f32) (bias : FVec Ideal S1x64 .f32) (R : Fin 1024 → Fin 32768)
    (h0 : ∀ (p : Fin 256) k, x0 (ix2 p k) = x (ix2 (R ⟨0 + p.val, by have := p.isLt; omega⟩) k))
    (h1 : ∀ (p : Fin 256) k, x1 (ix2 p k) = x (ix2 (R ⟨256 + p.val, by have := p.isLt; omega⟩) k))
    (h2 : ∀ (p : Fin 256) k, x2 (ix2 p k) = x (ix2 (R ⟨512 + p.val, by have := p.isLt; omega⟩) k))
    (h3 : ∀ (p : Fin 256) k, x3 (ix2 p k) = x (ix2 (R ⟨768 + p.val, by have := p.isLt; omega⟩) k))
    (hW : ∀ k j, wt (ix2 k j) = W (ix2 j k)) (hB : ∀ j, bias (ix2 (0 : Fin 1) j) = b (ix1 j)) (y : S1024x64.Idx) :
    outBlock (F := Ideal) x0 x1 x2 x3 wt bias y = G x W b (ix2 (R ⟨(y 0).val, idx2_lt0 y⟩) ⟨(y 1).val, idx2_lt1 y⟩) := by
  unfold outBlock
  simp only [View.ld_unit_zero (S := S256x4096) zeros2, View.ld_unit_zero (S := S4096x64) zeros2, View.ld_unit_zero (S := S1x64) zeros2,
    pay2_eq, pay4_eq, pay5_eq, pay3_eq]
  refine View.canon_apply_of_pieces (Val := Elt Ideal) (e := .f32)
    (fun y : S1024x64.Idx => (G x W b (ix2 (R ⟨(y 0).val, idx2_lt0 y⟩) ⟨(y 1).val, idx2_lt1 y⟩) : Elt Ideal .f32)) _ ?_ y
    (outCover _ _ _ _ y)
  intro pc hpc z
  rcases List.mem_cons.mp hpc with rfl | hpc
  ·
    obtain ⟨p, q, rfl⟩ : ∃ (p : Fin 256) (q : Fin 64), z = ix2 p q := ⟨z 0, z 1, eq_ix2 z⟩
    refine (quarter_apply x W b bias x3 wt (fun p => R ⟨768 + p.val, by have := p.isLt; omega⟩) h3 hW hB p q).trans ?_
    exact congrArg₂ (fun r c => G x W b (ix2 r c)) (congrArg R (Fin.ext (by show 768 + p.val = 768 + 1 * p.val; omega)))
      (Fin.ext (by show q.val = 0 + 1 * q.val; omega))
  rcases List.mem_cons.mp hpc with rfl | hpc
  ·
    obtain ⟨p, q, rfl⟩ : ∃ (p : Fin 256) (q : Fin 64), z = ix2 p q := ⟨z 0, z 1, eq_ix2 z⟩
    refine (quarter_apply x W b bias x2 wt (fun p => R ⟨512 + p.val, by have := p.isLt; omega⟩) h2 hW hB p q).trans ?_
    exact congrArg₂ (fun r c => G x W b (ix2 r c)) (congrArg R (Fin.ext (by show 512 + p.val = 512 + 1 * p.val; omega)))
      (Fin.ext (by show q.val = 0 + 1 * q.val; omega))
  rcases List.mem_cons.mp hpc with rfl | hpc
  ·
    obtain ⟨p, q, rfl⟩ : ∃ (p : Fin 256) (q : Fin 64), z = ix2 p q := ⟨z 0, z 1, eq_ix2 z⟩
    refine (quarter_apply x W b bias x1 wt (fun p => R ⟨256 + p.val, by have := p.isLt; omega⟩) h1 hW hB p q).trans ?_
    exact congrArg₂ (fun r c => G x W b (ix2 r c)) (congrArg R (Fin.ext (by show 256 + p.val = 256 + 1 * p.val; omega)))
      (Fin.ext (by show q.val = 0 + 1 * q.val; omega))
  rcases List.mem_cons.mp hpc with rfl | hpc
  ·
    obtain ⟨p, q, rfl⟩ : ∃ (p : Fin 256) (q : Fin 64), z = ix2 p q := ⟨z 0, z 1, eq_ix2 z⟩
    refine (quarter_apply x W b bias x0 wt (fun p => R ⟨0 + p.val, by have := p.isLt; omega⟩) h0 hW hB p q).trans ?_
    exact congrArg₂ (fun r c => G x W b (ix2 r c)) (congrArg R (Fin.ext (by show 0 + p.val = 0 + 1 * p.val; omega)))
      (Fin.ext (by show q.val = 0 + 1 * q.val; omega))
  exact absurd hpc List.not_mem_nil

/-- WHAT POINT t WRITES BACK is block t of the specification's array of the three arguments. -/
theorem flushed_eq (c : Dev nD) (t : Fin cfg0.N) :
    (dats m 0 c).flushed 6 t = ((cfg0.win 6).blk t).view.read (Elt Ideal) (G (argX m c) (argW m c) (argB m c)) := by
  show (cfg0.win 6).cut (grid0.coords t) ((dats m 0 c).after 6 t) = _
  rw [after_6]
  obtain ⟨a0, a1, b0, b1, c0, c1, d0, d1, e0, e1, f0, f1, g0, g1⟩ := idx_facts t
  funext y
  show outBlock (F := Ideal) (iblk m c 0 t) (iblk m c 1 t) (iblk m c 2 t) (iblk m c 3 t) (iblk m c 4 t) (iblk m c 5 t) y
    = G (argX m c) (argW m c) (argB m c) (((cfg0.win 6).blk t).view.emb y)
  refine (outBlock_apply (argX m c) (argW m c) (argB m c) (iblk m c 0 t) (iblk m c 1 t) (iblk m c 2 t) (iblk m c 3 t) (iblk m c 4 t) (iblk m c 5 t)
    (fun y0 => rowOf t y0.val y0.isLt) (tok0_apply m c t) (tok1_apply m c t) (tok2_apply m c t) (tok3_apply m c t)
    (wtBlk_apply m c t) (biasBlk_apply m c t) y).trans ?_
  refine congrArg (G (argX m c) (argW m c) (argB m c)) (funext fun a => Fin.ext ?_)
  match a with
  | ⟨0, _⟩ => show 1024 * t.val + (y 0).val = win0_6.index t (0 : Fin 2) * 1024 + 1 * (y 0).val; omega
  | ⟨1, _⟩ => show (y 1).val = win0_6.index t (1 : Fin 2) * 64 + 1 * (y 1).val; omega

/-- An index of the result is in point t's block iff its coordinates are in the block's ranges. -/
theorem mem_blk (t : Fin cfg0.N) (i : S32768x64.Idx) :
    i ∈ ((cfg0.win 6).blk t).view.set ↔ ∀ a : Fin 2, win0_6.index t a * S1024x64.size a ≤ (i a).val ∧ (i a).val < win0_6.index t a * S1024x64.size a + S1024x64.size a := by
  show i ∈ ((View.whole main_v2).slice (win0_6.rect t)).set ↔ _
  rw [View.set_slice_whole, Rect.mem_set_unit]
  exact Iff.rfl

/-- Every row of the result lies in the block of point (row / 1024), which writes its block back. -/
theorem cover (i : S32768x64.Idx) : ∃ t : Fin cfg0.N, (cfg0.win 6).flush t = true ∧ i ∈ ((cfg0.win 6).blk t).view.set := by
  have hi0 : (i 0).val < 32768 := (i 0).isLt
  have hi1 : (i 1).val < 64 := (i 1).isLt
  let t : Fin cfg0.N := ⟨(i 0).val / 1024, by rw [show cfg0.N = 32 from N_0]; omega⟩
  obtain ⟨a0, a1, b0, b1, c0, c1, d0, d1, e0, e1, f0, f1, g0, g1⟩ := idx_facts t
  have ht : t.val = (i 0).val / 1024 := rfl
  refine ⟨t, flush0_6 t, ?_⟩
  rw [mem_blk]
  intro a
  match a with
  | ⟨0, _⟩ => show win0_6.index t (0 : Fin 2) * 1024 ≤ (i 0).val ∧ (i 0).val < win0_6.index t (0 : Fin 2) * 1024 + 1024; omega
  | ⟨1, _⟩ => show win0_6.index t (1 : Fin 2) * 64 ≤ (i 1).val ∧ (i 1).val < win0_6.index t (1 : Fin 2) * 64 + 64; omega

/-- THE RESULT ARRAY after the run is the specification's array of the three arguments. -/
theorem final (c : Dev nD) : (dats m 0 c).arrAt 6 cfg0.N = G (argX m c) (argW m c) (argB m c) :=
  (dats m 0 c).arrAt_eq_of_cover 6 (G (argX m c) (argW m c) (argB m c)) (fun t _ => flushed_eq m c t) cover

/-! ## The run, read -/

/-- Every weakly fair execution of the idealized kernel's @main terminates with the result array at the
    specification's function of the arguments and the arguments unchanged. -/
theorem run : θ_run defs (onTc (τ := τ) (main (F := Ideal))) ⟨m, fun _ => 0, ρ⟩ fun r => ∀ c : Dev nD,
      r.2.mem ((c.tc : Thread nD τ).loc main_v2) = G (argX m c) (argW m c) (argB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).1 6).trans (final m c),
     ((h c).1 0).trans (((dats m 0 c).arrAt_in 0 rfl _).trans ((A_eq m c 0).trans (V_main_arg0 m c))),
     ((h c).2 main_arg1 (Pipeline.mem_restRefs_of main_arg1 (by decide) (by decide))).trans (V_main_arg1 m c),
     ((h c).2 main_arg2 (Pipeline.mem_restRefs_of main_arg2 (by decide) (by decide))).trans (V_main_arg2 m c)⟩) (run_main m ρ)

end Cert.KernelIdeal.Hand

end
-- ==== Proof.ReferenceValue.lean ====
/-
  The reference, read entry by entry: it computes the specification's function of its three arguments.

  Its program forms the logits  x · transpose(W) + b  (the bias broadcast down the rows), takes each row's maximum
  from minus infinity, takes the maximum of that with minus infinity once more, subtracts it along the row,
  exponentiates, sums each row from zero, and divides. Read at (r, q) stage by stage: the logits are the
  specification's; the row maximum is the fold of `max` over the row's 64 logits; the second maximum changes nothing
  (the fold is above where it started); the row sum is zero plus the sum over the row; the quotient is the row softmax.
-/
import proofs.«133879_g90297392431444_cont_sun_c4_184_22_alg».proof.Proof.Gen.ReferenceIdeal.Run
import proofs.«133879_g90297392431444_cont_sun_c4_184_22_alg».proof.Proof.Gen.ReferenceIdeal.Read
import proofs.«133879_g90297392431444_cont_sun_c4_184_22_alg».proof.Proof.RouterSpec
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx Cert.Router

variable (x0 : (⟨S32768x4096, .f32⟩ : BufTy).Contents (Elt Ideal)) (x1 : (⟨S64x4096, .f32⟩ : BufTy).Contents (Elt Ideal))
  (x2 : (⟨S64, .f32⟩ : BufTy).Contents (Elt Ideal))

/-- The logits at (r, j): the product with the transposed weights is the sum over k of x(r, k) · W(j, k), and the
    bias broadcast to a row and then down the rows reads b(j). -/
theorem logits_apply (r : Fin 32768) (j : Fin 64) : val_main_v4 (F := Ideal) x0 x1 x2 (ix2 r j) = logit x0 x1 x2 r j := by
  rw [val_main_v4_apply, val_main_v1_apply, val_main_v3_apply, val_main_v2_apply]
  show (∑ k : Fin 4096, x0 (lidx_main_v1 (ix2 r j) k) * val_main_v0 (F := Ideal) x1 (ridx_main_v1 (ix2 r j) k))
      + x2 (idx_main_v2 (idx_main_v3 (ix2 r j))) = _
  unfold logit
  refine congrArg₂ (· + ·) (Finset.sum_congr rfl fun k _ => ?_) ?_
  · rw [val_main_v0_apply]
    exact congrArg₂ (· * ·) (congrArg x0 (funext fun a => Fin.ext (by match a with | ⟨0, _⟩ => rfl | ⟨1, _⟩ => rfl))) (congrArg x1 (funext fun a => Fin.ext (by match a with | ⟨0, _⟩ => rfl | ⟨1, _⟩ => rfl)))
  · exact congrArg x2 (funext fun a => Fin.ext (by match a with | ⟨0, _⟩ => rfl))

/-- The rows of a 32768 x 64 array are reduced over their 64 columns. -/
theorem redRows : S32768x64.Reduces [1] S32768 := by decide

theorem lift_row (r : Fin 32768) (j : Fin 64) : redRows.lift (ix1 r) j = ix2 r j :=
  (funext fun a => Fin.ext (by match a with | ⟨0, _⟩ => rfl | ⟨1, _⟩ => rfl))

/-- The row maximum at r: the fold of `max`, from what the minus-infinity word denotes, over row r's logits. -/
theorem rowMax_apply (r : Fin 32768) : val_main_v5 (F := Ideal) x0 x1 x2 (ix1 r) = rowMax (logit x0 x1 x2 r) := by
  have h := Host.reduce_eq_fold_single (α := Ideal .f32) (FloatOps.maximumf (F := Ideal) (φ := .f32))
    (val_main_v4 (F := Ideal) x0 x1 x2) (val_main_cst (F := Ideal)) reducesTo_S32768x64_S32768_d1 redRows h_S_ (ix1 r)
  refine (show val_main_v5 (F := Ideal) x0 x1 x2 (ix1 r) = _ from h).trans ?_
  show (Finset.univ : Finset (Fin 64)).fold max seed (fun j => val_main_v4 (F := Ideal) x0 x1 x2 (redRows.lift (ix1 r) j))
    = (Finset.univ : Finset (Fin 64)).fold max seed (logit x0 x1 x2 r)
  exact congrArg (fun f : Fin 64 → EReal => (Finset.univ : Finset (Fin 64)).fold max seed f)
    (funext fun j => (congrArg (val_main_v4 (F := Ideal) x0 x1 x2) (lift_row r j)).trans (logits_apply x0 x1 x2 r j))

/-- The maximum with minus infinity once more is the row maximum. -/
theorem rowMax2_apply (r : Fin 32768) : val_main_v7 (F := Ideal) x0 x1 x2 (ix1 r) = rowMax (logit x0 x1 x2 r) := by
  rw [val_main_v7_apply, rowMax_apply, val_main_v6_apply]
  exact max_seed_rowMax _

/-- Kept as a column and broadcast back across the row, it is the row maximum at every column. -/
theorem rowMaxB_apply (r : Fin 32768) (j : Fin 64) : val_main_v9 (F := Ideal) x0 x1 x2 (ix2 r j) = rowMax (logit x0 x1 x2 r) := by
  rw [val_main_v9_apply, val_main_v8_apply]
  exact (congrArg (val_main_v7 (F := Ideal) x0 x1 x2) (funext fun a => Fin.ext (by match a with | ⟨0, _⟩ => rfl))).trans (rowMax2_apply x0 x1 x2 r)

/-- The exponential of the shifted logit. -/
theorem exps_apply (r : Fin 32768) (j : Fin 64) :
    val_main_v11 (F := Ideal) x0 x1 x2 (ix2 r j) = Ideal.exp (logit x0 x1 x2 r j - rowMax (logit x0 x1 x2 r)) := by
  rw [val_main_v11_apply, val_main_v10_apply, logits_apply, rowMaxB_apply]
  rfl

/-- The row sum at r: zero plus the sum of the row's exponentials. -/
theorem rowSum_apply (r : Fin 32768) :
    val_main_v12 (F := Ideal) x0 x1 x2 (ix1 r) = ∑ j : Fin 64, Ideal.exp (logit x0 x1 x2 r j - rowMax (logit x0 x1 x2 r)) := by
  rw [val_main_v12_apply]
  show Ideal.ofBits .f32 0x00000000#32 + _ = _
  rw [Ideal.ofBits_zero_f32, zero_add]
  refine Finset.sum_congr rfl fun j _ => ?_
  exact (congrArg (val_main_v11 (F := Ideal) x0 x1 x2) (funext fun a => Fin.ext (by match a with | ⟨0, _⟩ => rfl | ⟨1, _⟩ => rfl))).trans (exps_apply x0 x1 x2 r j)

/-- THE REFERENCE IS THE SPECIFICATION. -/
theorem ref_eq_G : val_main_v15 (F := Ideal) x0 x1 x2 = G x0 x1 x2 := by
  funext i
  obtain ⟨r, q, rfl⟩ : ∃ (r : Fin 32768) (q : Fin 64), i = ix2 r q := ⟨i 0, i 1, eq_ix2 i⟩
  rw [G_ix2, val_main_v15_apply, exps_apply, val_main_v14_apply, val_main_v13_apply]
  unfold rowSoftmax
  show Ideal.div _ _ = _
  refine congrArg (Ideal.div _) ?_
  exact (congrArg (val_main_v12 (F := Ideal) x0 x1 x2) (funext fun a => Fin.ext (by match a with | ⟨0, _⟩ => rfl))).trans (rowSum_apply x0 x1 x2 r)

end Cert.ReferenceIdeal.RefValue

end
-- ==== Proof.lean ====
/-
  The router kernel against its reference: softmax(x · transpose(W) + b) over 32768 tokens and 64 experts.

  The kernel fuses the projection, the bias and the softmax in one pipelined region; each 1024-token block reaches
  the body as four 256-token quarters, four windows on the one token array. The reference forms the same logits
  with one matrix product and applies the softmax along the rows.

  * The two kernel programs (as printed, and idealized) run to the end, fault nowhere and leave the arguments as they
    were: the shared token array's full share is dealt in quarters among the four windows on it, and the body only
    reads its inputs. The reference's frame is its run with the result dropped.
  * The idealization rewrote nothing, so there is nothing to preserve.
  * On the extended reals both programs compute ONE function of the arguments: row r of the result is the softmax
    of token r's logits. The kernel's side: each quarter's payload is the row softmax of its rows' logits, the four
    row bands are block t of that array, and the 32 blocks tile it. The reference's side: the same logits, the
    same row maximum (its one further maximum with minus infinity changes nothing), the same exponentials, the row
    sum from zero, the same quotient. No law that needs finite inputs is used.
-/
import proofs.«133879_g90297392431444_cont_sun_c4_184_22_alg».proof.Defs
import proofs.«133879_g90297392431444_cont_sun_c4_184_22_alg».proof.Proof.Gen.Kernel
import proofs.«133879_g90297392431444_cont_sun_c4_184_22_alg».proof.Proof.Gen.Kernel.Skeleton
import proofs.«133879_g90297392431444_cont_sun_c4_184_22_alg».proof.Proof.Gen.Kernel.Launch
import proofs.«133879_g90297392431444_cont_sun_c4_184_22_alg».proof.Proof.Gen.Kernel.Points
import proofs.«133879_g90297392431444_cont_sun_c4_184_22_alg».proof.Proof.Gen.KernelIdeal
import proofs.«133879_g90297392431444_cont_sun_c4_184_22_alg».proof.Proof.Gen.KernelIdeal.Skeleton
import proofs.«133879_g90297392431444_cont_sun_c4_184_22_alg».proof.Proof.Gen.KernelIdeal.Launch
import proofs.«133879_g90297392431444_cont_sun_c4_184_22_alg».proof.Proof.Gen.KernelIdeal.Points
import proofs.«133879_g90297392431444_cont_sun_c4_184_22_alg».proof.Proof.Gen.ReferenceIdeal
import proofs.«133879_g90297392431444_cont_sun_c4_184_22_alg».proof.Proof.Gen.Pre_finite_inputs
import proofs.«133879_g90297392431444_cont_sun_c4_184_22_alg».proof.Proof.KernelFrame
import proofs.«133879_g90297392431444_cont_sun_c4_184_22_alg».proof.Proof.KernelIdealValue
import proofs.«133879_g90297392431444_cont_sun_c4_184_22_alg».proof.Proof.ReferenceValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the specification's function of arguments that agree. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v15_eq _ _ _).trans (Cert.ReferenceIdeal.RefValue.ref_eq_G _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
